-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x800000 32) (main_arg2 : FVec F S800000 .f32) (main_arg3 : FVec F S128x256 .f32) (main_arg4 : FVec F S256 .f32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S100000x128 : Shape := ⟨2, ![100000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S100000 : Shape := ⟨1, ![100000]⟩
abbrev S800000x1 : Shape := ⟨2, ![800000, 1]⟩
abbrev S100000x256 : Shape := ⟨2, ![100000, 256]⟩
abbrev S5000x128 : Shape := ⟨2, ![5000, 128]⟩
abbrev S5000x256 : Shape := ⟨2, ![5000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 81
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S100000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S100000x256, .f32⟩
  | .hbm, ⟨58, _⟩ => ⟨S800000x1, .i32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S800000x1, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S100000x128, .f32⟩
  | .hbm, ⟨77, _⟩ => ⟨S800000x1, .i32⟩
  | .hbm, ⟨78, _⟩ => ⟨S100000x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S256x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x128_S128x256_S5000x256_1_0_0_1_n_n_wf : DotDims.WF S5000x128 S128x256 S5000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S5000x256_S256x128_S5000x128_1_0_0_1_n_n_wf : DotDims.WF S5000x256 S256x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .f32 = 32 ∨ (Rect.block (s := S100000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .f32 = 32 ∨ (Rect.block (s := S100000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S_ : Shape := ⟨0, ![]⟩
abbrev S100000 : Shape := ⟨1, ![100000]⟩
abbrev S800000x1 : Shape := ⟨2, ![800000, 1]⟩
abbrev S100000x256 : Shape := ⟨2, ![100000, 256]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S100000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S800000x1, .f32⟩
  | .hbm, ⟨54, _⟩ => ⟨S800000x256, .f32⟩
  | .hbm, ⟨55, _⟩ => ⟨S800000x256, .f32⟩
  | .hbm, ⟨56, _⟩ => ⟨S_, .f32⟩
  | .hbm, ⟨57, _⟩ => ⟨S100000x256, .f32⟩
  | .hbm, ⟨58, _⟩ => ⟨S800000x1, .i32⟩
  | .hbm, ⟨59, _⟩ => ⟨S100000x256, .f32⟩
  | .hbm, ⟨60, _⟩ => ⟨S1x256, .f32⟩
  | .hbm, ⟨61, _⟩ => ⟨S100000x256, .f32⟩
  | .hbm, ⟨62, _⟩ => ⟨S100000x256, .f32⟩
  | .hbm, ⟨63, _⟩ => ⟨S_, .f32⟩
  | .hbm, ⟨64, _⟩ => ⟨S100000x256, .f32⟩
  | .hbm, ⟨65, _⟩ => ⟨S100000x256, .f32⟩
  | .hbm, ⟨66, _⟩ => ⟨S100000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S100000x128, .f32⟩
  | .hbm, ⟨81, _⟩ => ⟨S800000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.Transform1.lean ====
/-
  Layer one's feature transform, read as a value. The first region multiplies a block of 5000 rows of the node
  features by the whole weight matrix at every grid point (the narrowing of both operands to sixteen bits is the identity
  on extended reals, and the product accumulates into zero); the twenty blocks tile the 100000 rows, so the result array
  is ONE function of the two argument arrays: at (r, q) the sum over k of x (r, k) · w (k, q) — the host's whole
  `dot_general` of the two arrays, which is how the result is stated here.
-/
import proofs.«133460_j56444460204637_1_alg».proof.Proof.Gen.KernelIdeal.Frame
import proofs.«133460_j56444460204637_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Transform1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two input arrays as the region finds them, at their literal types. -/
abbrev featArr (c : Dev nD) : S100000x128.Idx → EReal := V c main_arg0
abbrev wArr (c : Dev nD) : S128x256.Idx → EReal := V c main_arg3

/-- The whole product of the two arrays: the host's contraction of the features' columns with the weights' rows. -/
abbrev prod (x : S100000x128.Idx → EReal) (w : S128x256.Idx → EReal) : S100000x256.Idx → EReal :=
  Cert.ReferenceIdeal.Read.val_main_v27 (F := Ideal) x w

/-! The block product's operand indices at an output index and a contraction index, axis by axis. -/

theorem lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's arithmetic at an element: row `j 0` of the block against column `j 1` of the weights, summed over the
    128 shared coordinates. -/
theorem pay_apply (x0 : Vec Ideal S5000x128 .f32) (x1 : Vec Ideal S128x256 .f32) (j : S5000x256.Idx) :
    k0_pay1 x0 x1 j = ∑ k : Fin 128, x0 (ix2 (j 0) k) * x1 (ix2 k (j 1)) := by
  unfold k0_pay1
  simp only [matmul]
  rw [Idealize.ShloMosaic.Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx j ((contrEquiv1 dot_S5000x128_S128x256_S5000x256_1_0_0_1_n_n 128 rfl rfl).symm k) = ix2 (j 0) k := funext fun a => Fin.ext (by
    match a with
    | ⟨0, _⟩ => exact lhs_0 _ _
    | ⟨1, _⟩ => exact (lhs_1 _ _).trans hk)
  have er : dot_S5000x128_S128x256_S5000x256_1_0_0_1_n_n.rhsIdx j ((contrEquiv1 dot_S5000x128_S128x256_S5000x256_1_0_0_1_n_n 128 rfl rfl).symm k) = ix2 k (j 1) := funext fun a => Fin.ext (by
    match a with
    | ⟨0, _⟩ => exact (rhs_0 _ _).trans hk
    | ⟨1, _⟩ => exact rhs_1 _ _)
  rw [truncf_apply, truncf_apply, el, er]
  rfl

/-- Where each window's block sits at a grid point: the feature and result windows at block row `t`, the weights at
    their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the region finds them. -/
theorem flushed_eq (c : Dev nD) (t : Fin cfg0.N) :
    (dat0 V c).flushed 2 t = ((cfg0.win 2).blk t).view.read (Elt Ideal) (prod (featArr V c) (wArr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨e0, e1, e2, e3, e4, e5⟩ := idx_facts t
  funext j
  show k0_pay1 (iblk0 V c 0 t) (iblk0 V c 1 t) j = prod (featArr V c) (wArr V c) (((cfg0.win 2).blk t).view.emb j)
  refine (pay_apply (iblk0 V c 0 t) (iblk0 V c 1 t) j).trans ?_
  refine Eq.trans ?_ (Cert.ReferenceIdeal.Read.val_main_v27_apply (featArr V c) (wArr V c) (((cfg0.win 2).blk t).view.emb j)).symm
  refine Finset.sum_congr rfl fun k _ => ?_
  have h0 : ((cfg0.win 0).blk t).view.emb (ix2 (j 0) k) = Cert.ReferenceIdeal.Read.lidx_main_v27 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = Cert.ReferenceIdeal.Read.ridx_main_v27 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  have hA : (iblk0 V c 0 t : Vec Ideal S5000x128 .f32) (ix2 (j 0) k) = featArr V c (Cert.ReferenceIdeal.Read.lidx_main_v27 (((cfg0.win 2).blk t).view.emb j) k) := by
    show V c main_arg0 (((cfg0.win 0).blk t).view.emb (ix2 (j 0) k)) = V c main_arg0 _
    exact congrArg _ h0
  have hB : (iblk0 V c 1 t : Vec Ideal S128x256 .f32) (ix2 k (j 1)) = wArr V c (Cert.ReferenceIdeal.Read.ridx_main_v27 (((cfg0.win 2).blk t).view.emb j) k) := by
    show V c main_arg3 (((cfg0.win 1).blk t).view.emb (ix2 k (j 1))) = V c main_arg3 _
    exact congrArg _ h1
  rw [hA, hB]

/-- An index of the array is in point `t`'s block iff each coordinate is in the block's range on its axis. -/
theorem mem_blk (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v27).slice (win0_2.rect t)).set ↔ _
  rw [View.set_slice_whole, Rect.mem_set_unit]
  exact Iff.rfl

/-- Row `r` lies in the block of point `r / 5000`: the twenty blocks tile the array. -/
theorem cover (i : S100000x256.Idx) : ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 256 ≤ (i 1).val ∧ (i 1).val < win0_2.index _ (1 : Fin 2) * 256 + 256; rw [e5]; omega

/-- The region's result array after its twenty points. -/
theorem arr (c : Dev nD) : (dat0 V c).arrAt 2 cfg0.N = prod (featArr V c) (wArr V c) :=
  (dat0 V c).arrAt_eq_of_cover 2 (prod (featArr V c) (wArr V c)) (fun t _ => flushed_eq V c t) cover

end Cert.KernelIdeal.Transform1

end
-- ==== Proof.Transform2.lean ====
/-
  Layer two's feature transform, read as a value. The third region multiplies a block of 5000 rows of the hidden
  features by the whole second weight matrix at every grid point (both operands narrowed to sixteen bits, the identity
  on extended reals; the product accumulates into zero); the twenty blocks tile the 100000 rows, so the result array is
  ONE function of the region's two input arrays: at (r, q) the sum over k of h (r, k) · w (k, q) — the host's whole
  `dot_general` of the two arrays, which is how the result is stated here.
-/
import proofs.«133460_j56444460204637_1_alg».proof.Proof.Gen.KernelIdeal.Frame
import proofs.«133460_j56444460204637_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Transform2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two input arrays as the region finds them, at their literal types. -/
abbrev hidArr (c : Dev nD) : S100000x256.Idx → EReal := V c main_v42
abbrev wArr (c : Dev nD) : S256x128.Idx → EReal := V c main_arg5

/-- The whole product of the two arrays: the host's contraction of the hidden features' columns with the weights' rows. -/
abbrev prod (y : S100000x256.Idx → EReal) (w : S256x128.Idx → EReal) : S100000x128.Idx → EReal :=
  Host.dotGeneral (F := Ideal) (φ₁ := .f32) (φ₂ := .f32) Cert.ReferenceIdeal.dot_S100000x256_S256x128_S100000x128_1_0_0_1_n_n none y w

/-- The whole product at an index: row `i 0` of the left array against column `i 1` of the right one, summed over the 256
    shared coordinates. -/
theorem prod_apply (y : S100000x256.Idx → EReal) (w : S256x128.Idx → EReal) (i : S100000x128.Idx) :
    prod y w i = ∑ k : Fin 256, y (Cert.ReferenceIdeal.Read.lidx_main_v45 i k) * w (Cert.ReferenceIdeal.Read.ridx_main_v45 i k) := by
  unfold prod
  simp only [Host.dotGeneral]
  rw [Idealize.ShloMosaic.Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx i ((contrEquiv1 Cert.ReferenceIdeal.dot_S100000x256_S256x128_S100000x128_1_0_0_1_n_n 256 rfl rfl).symm k) = Cert.ReferenceIdeal.Read.lidx_main_v45 i k := funext fun a => Fin.ext (by
    match a with
    | ⟨0, _⟩ => exact Cert.ReferenceIdeal.Read.lhs_main_v45_0 _ _
    | ⟨1, _⟩ => exact (Cert.ReferenceIdeal.Read.lhs_main_v45_1 _ _).trans hk)
  have er : Cert.ReferenceIdeal.dot_S100000x256_S256x128_S100000x128_1_0_0_1_n_n.rhsIdx i ((contrEquiv1 Cert.ReferenceIdeal.dot_S100000x256_S256x128_S100000x128_1_0_0_1_n_n 256 rfl rfl).symm k) = Cert.ReferenceIdeal.Read.ridx_main_v45 i k := funext fun a => Fin.ext (by
    match a with
    | ⟨0, _⟩ => exact (Cert.ReferenceIdeal.Read.rhs_main_v45_0 _ _).trans hk
    | ⟨1, _⟩ => exact Cert.ReferenceIdeal.Read.rhs_main_v45_1 _ _)
  rw [el, er]

/-! The block product's operand indices at an output index and a contraction index, axis by axis. -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's arithmetic at an element: row `j 0` of the block against column `j 1` of the weights, summed over the
    256 shared coordinates. -/
theorem pay_apply (x0 : Vec Ideal S5000x256 .f32) (x1 : Vec Ideal S256x128 .f32) (j : S5000x128.Idx) :
    k2_pay1 x0 x1 j = ∑ k : Fin 256, x0 (ix2 (j 0) k) * x1 (ix2 k (j 1)) := by
  unfold k2_pay1
  simp only [matmul, shapeCast_self]
  rw [Idealize.ShloMosaic.Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx j ((contrEquiv1 dot_S5000x256_S256x128_S5000x128_1_0_0_1_n_n 256 rfl rfl).symm k) = ix2 (j 0) k := funext fun a => Fin.ext (by
    match a with
    | ⟨0, _⟩ => exact lhs_0 _ _
    | ⟨1, _⟩ => exact (lhs_1 _ _).trans hk)
  have er : dot_S5000x256_S256x128_S5000x128_1_0_0_1_n_n.rhsIdx j ((contrEquiv1 dot_S5000x256_S256x128_S5000x128_1_0_0_1_n_n 256 rfl rfl).symm k) = ix2 k (j 1) := funext fun a => Fin.ext (by
    match a with
    | ⟨0, _⟩ => exact (rhs_0 _ _).trans hk
    | ⟨1, _⟩ => exact rhs_1 _ _)
  rw [truncf_apply, truncf_apply, el, er]
  rfl

/-- Where each window's block sits at a grid point: the hidden-feature and result windows at block row `t`, the weights
    at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the two arrays as the region finds them. -/
theorem flushed_eq (c : Dev nD) (t : Fin cfg2.N) :
    (dat2 V c).flushed 2 t = ((cfg2.win 2).blk t).view.read (Elt Ideal) (prod (hidArr V c) (wArr V c)) := by
  show (cfg2.win 2).cut (grid2.coords t) ((dat2 V c).after 2 t) = _
  rw [after2_2]
  unfold out2_2
  rw [View.canon_unit_zero hz]
  simp only [View.ld_unit_zero (S := S5000x256) hz, View.ld_unit_zero (S := S256x128) hz]
  obtain ⟨e0, e1, e2, e3, e4, e5⟩ := idx_facts t
  funext j
  show k2_pay1 (iblk2 V c 0 t) (iblk2 V c 1 t) j = prod (hidArr V c) (wArr V c) (((cfg2.win 2).blk t).view.emb j)
  refine (pay_apply (iblk2 V c 0 t) (iblk2 V c 1 t) j).trans ?_
  refine Eq.trans ?_ (prod_apply (hidArr V c) (wArr V c) (((cfg2.win 2).blk t).view.emb j)).symm
  refine Finset.sum_congr rfl fun k _ => ?_
  have h0 : ((cfg2.win 0).blk t).view.emb (ix2 (j 0) k) = Cert.ReferenceIdeal.Read.lidx_main_v45 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 256 + 1 * k.val = k.val; omega
  have h1 : ((cfg2.win 1).blk t).view.emb (ix2 k (j 1)) = Cert.ReferenceIdeal.Read.ridx_main_v45 (((cfg2.win 2).blk t).view.emb j) k := by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  have hA : (iblk2 V c 0 t : Vec Ideal S5000x256 .f32) (ix2 (j 0) k) = hidArr V c (Cert.ReferenceIdeal.Read.lidx_main_v45 (((cfg2.win 2).blk t).view.emb j) k) := by
    show V c main_v42 (((cfg2.win 0).blk t).view.emb (ix2 (j 0) k)) = V c main_v42 _
    exact congrArg _ h0
  have hB : (iblk2 V c 1 t : Vec Ideal S256x128 .f32) (ix2 k (j 1)) = wArr V c (Cert.ReferenceIdeal.Read.ridx_main_v45 (((cfg2.win 2).blk t).view.emb j) k) := by
    show V c main_arg5 (((cfg2.win 1).blk t).view.emb (ix2 k (j 1))) = V c main_arg5 _
    exact congrArg _ h1
  rw [hA, hB]

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Row `r` lies in the block of point `r / 5000`: the twenty blocks tile the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 128 ≤ (i 1).val ∧ (i 1).val < win2_2.index _ (1 : Fin 2) * 128 + 128; rw [e5]; omega

/-- The region's result array after its twenty points. -/
theorem arr (c : Dev nD) : (dat2 V c).arrAt 2 cfg2.N = prod (hidArr V c) (wArr V c) :=
  (dat2 V c).arrAt_eq_of_cover 2 (prod (hidArr V c) (wArr V c)) (fun t _ => flushed_eq V c t) cover

end Cert.KernelIdeal.Transform2

end
-- ==== Proof.BiasRelu.lean ====
/-
  Layer one's bias stage, read as a value. The third region adds the bias row to every row of the aggregated
  features and clamps below at zero, one block of 5000 rows per grid point; the blocks tile the 100000 rows, so the
  result array is ONE function of the region's two input arrays: at (r, q) it is max (a (r, q) + b (0, q)) 0.
-/
import proofs.«133460_j56444460204637_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Rows plus the bias row, clamped below at zero. -/
def biasRelu (a : S100000x256.Idx → EReal) (b : S1x256.Idx → EReal) : S100000x256.Idx → EReal :=
  fun i => max (a i + b (ix2 (0 : Fin 1) (i 1))) 0

/-- The two input arrays as the region finds them, at their literal types. -/
abbrev rowsArr (c : Dev nD) : S100000x256.Idx → EReal := V c main_v40
abbrev biasArr (c : Dev nD) : S1x256.Idx → EReal := V c main_v41

/-- The body's arithmetic at an element: the block's entry plus the bias row's entry in the same column, then the
    maximum with zero. -/
theorem pay_apply (x0 : Vec Ideal S5000x256 .f32) (x1 : Vec Ideal S1x256 .f32) (j : S5000x256.Idx) :
    k1_pay1 x0 x1 j = max (x0 j + x1 (ix2 (0 : Fin 1) (j 1))) 0 := by
  obtain ⟨p, q, rfl⟩ : ∃ (p : Fin 5000) (q : Fin 256), j = ix2 p q := ⟨j 0, j 1, eq_ix2 j⟩
  unfold k1_pay1
  simp only [shapeCast_self]
  rw [maximumf_apply, addf_apply, broadcastTo_1b_ab_apply]
  show max _ (Ideal.ofBits .f32 0x00000000#32) = _
  rw [Idealize.ShloMosaic.Ideal.ofBits_zero_f32]

/-- Where each window's block sits at a grid point: the row windows at block row `t`, the bias window at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the two input arrays as the region finds them. -/
theorem flushed_eq (c : Dev nD) (t : Fin cfg1.N) :
    (dat1 V c).flushed 2 t = ((cfg1.win 2).blk t).view.read (Elt Ideal) (biasRelu (rowsArr V c) (biasArr V c)) := by
  show (cfg1.win 2).cut (grid1.coords t) ((dat1 V c).after 2 t) = _
  rw [after1_2]
  unfold out1_2
  rw [View.canon_unit_zero hz]
  simp only [View.ld_unit_zero (S := S5000x256) hz, View.ld_unit_zero (S := S1x256) hz]
  obtain ⟨e0, e1, e2, e3, e4, e5⟩ := idx_facts t
  funext j
  show k1_pay1 (iblk1 V c 0 t) (iblk1 V c 1 t) j = _
  refine (pay_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  have hA : (iblk1 V c 0 t : Vec Ideal S5000x256 .f32) j = rowsArr V c (((cfg1.win 2).blk t).view.emb j) := by
    show V c main_v40 (((cfg1.win 0).blk t).view.emb j) = V c main_v40 (((cfg1.win 2).blk t).view.emb j)
    exact congrArg _ h0
  have hB : (iblk1 V c 1 t : Vec Ideal S1x256 .f32) (ix2 (0 : Fin 1) (j 1)) = biasArr V c (ix2 (0 : Fin 1) ((((cfg1.win 2).blk t).view.emb j) 1)) := by
    show V c main_v41 (((cfg1.win 1).blk t).view.emb (ix2 (0 : Fin 1) (j 1))) = V c main_v41 (ix2 (0 : Fin 1) ((((cfg1.win 2).blk t).view.emb j) 1))
    exact congrArg _ h1
  rw [hA, hB]
  rfl

/-- An index of the array is in point `t`'s block iff each coordinate is in the block's range on its axis. -/
theorem mem_blk (t : Fin cfg1.N) (i : S100000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v42).slice (win1_2.rect t)).set ↔ _
  rw [View.set_slice_whole, Rect.mem_set_unit]
  exact Iff.rfl

/-- Row `r` lies in the block of point `r / 5000`: the twenty blocks tile the array. -/
theorem cover (i : S100000x256.Idx) : ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 20 := N_1
  refine ⟨⟨(i 0).val / 5000, by rw [hN]; omega⟩, flush1_2 _, ?_⟩
  rw [mem_blk]
  obtain ⟨e0, e1, e2, e3, e4, e5⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 256 ≤ (i 1).val ∧ (i 1).val < win1_2.index _ (1 : Fin 2) * 256 + 256; rw [e5]; omega

/-- The region's result array after its twenty points. -/
theorem arr (c : Dev nD) : (dat1 V c).arrAt 2 cfg1.N = biasRelu (rowsArr V c) (biasArr V c) :=
  (dat1 V c).arrAt_eq_of_cover 2 (biasRelu (rowsArr V c) (biasArr V c)) (fun t _ => flushed_eq V c t) cover

end Cert.KernelIdeal.BiasRelu

end
-- ==== Proof.BiasOut.lean ====
/-
  Layer two's bias stage, read as a value. The last region adds the bias row to every row of the aggregated features,
  one block of 5000 rows per grid point; the blocks tile the 100000 rows, so the result array is ONE function of the
  region's two input arrays: at (r, q) it is a (r, q) + b (0, q).
-/
import proofs.«133460_j56444460204637_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasOut

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Rows plus the bias row. -/
def addBias (a : S100000x128.Idx → EReal) (b : S1x128.Idx → EReal) : S100000x128.Idx → EReal :=
  fun i => a i + b (ix2 (0 : Fin 1) (i 1))

/-- The two input arrays as the region finds them, at their literal types. -/
abbrev rowsArr (c : Dev nD) : S100000x128.Idx → EReal := V c main_v56
abbrev biasArr (c : Dev nD) : S1x128.Idx → EReal := V c main_v57

/-- The body's arithmetic at an element: the block's entry plus the bias row's entry in the same column. -/
theorem pay_apply (x0 : Vec Ideal S5000x128 .f32) (x1 : Vec Ideal S1x128 .f32) (j : S5000x128.Idx) :
    k3_pay1 x0 x1 j = x0 j + x1 (ix2 (0 : Fin 1) (j 1)) := by
  obtain ⟨p, q, rfl⟩ : ∃ (p : Fin 5000) (q : Fin 128), j = ix2 p q := ⟨j 0, j 1, eq_ix2 j⟩
  unfold k3_pay1
  simp only [shapeCast_self]
  rw [addf_apply, broadcastTo_1b_ab_apply]

/-- Where each window's block sits at a grid point: the row windows at block row `t`, the bias window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `addBias` of the two input arrays as the region finds them. -/
theorem flushed_eq (c : Dev nD) (t : Fin cfg3.N) :
    (dat3 V c).flushed 2 t = ((cfg3.win 2).blk t).view.read (Elt Ideal) (addBias (rowsArr V c) (biasArr V c)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  funext j
  show k3_pay1 (iblk3 V c 0 t) (iblk3 V c 1 t) j = _
  refine (pay_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have hA : (iblk3 V c 0 t : Vec Ideal S5000x128 .f32) j = rowsArr V c (((cfg3.win 2).blk t).view.emb j) := by
    show V c main_v56 (((cfg3.win 0).blk t).view.emb j) = V c main_v56 (((cfg3.win 2).blk t).view.emb j)
    exact congrArg _ h0
  have hB : (iblk3 V c 1 t : Vec Ideal S1x128 .f32) (ix2 (0 : Fin 1) (j 1)) = biasArr V c (ix2 (0 : Fin 1) ((((cfg3.win 2).blk t).view.emb j) 1)) := by
    show V c main_v57 (((cfg3.win 1).blk t).view.emb (ix2 (0 : Fin 1) (j 1))) = V c main_v57 (ix2 (0 : Fin 1) ((((cfg3.win 2).blk t).view.emb j) 1))
    exact congrArg _ h1
  rw [hA, hB]
  rfl

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- Row `r` lies in the block of point `r / 5000`: the twenty blocks tile the array. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_2 _, ?_⟩
  rw [mem_blk]
  obtain ⟨e0, e1, e2, e3, e4, e5⟩ := idx_facts ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 128 ≤ (i 1).val ∧ (i 1).val < win3_2.index _ (1 : Fin 2) * 128 + 128; rw [e5]; omega

/-- The region's result array after its twenty points. -/
theorem arr (c : Dev nD) : (dat3 V c).arrAt 2 cfg3.N = addBias (rowsArr V c) (biasArr V c) :=
  (dat3 V c).arrAt_eq_of_cover 2 (addBias (rowsArr V c) (biasArr V c)) (fun t _ => flushed_eq V c t) cover

end Cert.KernelIdeal.BiasOut

end
-- ==== Proof.RefForms.lean ====
/-
  The reference's two bias stages in the kernel's form. The reference adds the bias by broadcasting the bias VECTOR to
  a row and the row to every row; the kernel's regions read the bias as a one-row ARRAY (the vector reshaped). Index by
  index both read the vector's entry in the element's column, so the reference's stages are the kernel's functions
  `biasRelu` and `addBias` of the reshaped vector.
-/
import proofs.«133460_j56444460204637_1_alg».proof.Proof.BiasRelu
import proofs.«133460_j56444460204637_1_alg».proof.Proof.BiasOut
import proofs.«133460_j56444460204637_1_alg».proof.Proof.Gen.ReferenceIdeal.Read
import proofs.«133460_j56444460204637_1_alg».proof.Proof.Gen.KernelIdeal
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.RefForms

open Cert.KernelIdeal Cert.KernelIdeal.Facts₀ Cert.KernelIdeal.Facts

/-- Layer one: rows plus the broadcast bias vector, clamped below at the broadcast zero, is `biasRelu` of the rows and
    the vector reshaped to one row. -/
theorem biasRelu_eq (a : S100000x256.Idx → EReal) (b : S256.Idx → EReal) :
    BiasRelu.biasRelu a (shapeCast S1x256 b shapeCasts_S256_S1x256)
      = maximumf (F := Ideal) (φ := .f32) (addf (F := Ideal) (φ := .f32) a (Cert.ReferenceIdeal.Read.val_main_v42 (F := Ideal) b)) (Cert.ReferenceIdeal.Read.val_main_call1_v0 (F := Ideal)) := by
  funext i
  obtain ⟨r, q, rfl⟩ : ∃ (r : Fin 100000) (q : Fin 256), i = ix2 r q := ⟨i 0, i 1, eq_ix2 i⟩
  unfold BiasRelu.biasRelu
  rw [maximumf_apply, addf_apply, Cert.ReferenceIdeal.Read.val_main_v42_apply, Cert.ReferenceIdeal.Read.val_main_v41_apply,
    Cert.ReferenceIdeal.Read.val_main_call1_v0_apply, Cert.ReferenceIdeal.Read.val_main_call1_cst_apply]
  show max (a (ix2 r q) + shapeCast (⟨2, ![1, 256]⟩ : Shape) b shapeCasts_S256_S1x256 (ix2 (0 : Fin 1) q)) 0
    = max (a (ix2 r q) + b _) (Idealize.ShloMosaic.Ideal.ofBits .f32 0x00000000#32)
  rw [shapeCast_a_1a_apply, Idealize.ShloMosaic.Ideal.ofBits_zero_f32]
  congr 3
  funext d; match d with | ⟨0, _⟩ => rfl

/-- Layer two: rows plus the broadcast bias vector is `addBias` of the rows and the vector reshaped to one row. -/
theorem addBias_eq (a : S100000x128.Idx → EReal) (b : S128.Idx → EReal) :
    BiasOut.addBias a (shapeCast S1x128 b shapeCasts_S128_S1x128)
      = addf (F := Ideal) (φ := .f32) a (Cert.ReferenceIdeal.Read.val_main_v60 (F := Ideal) b) := by
  funext i
  obtain ⟨r, q, rfl⟩ : ∃ (r : Fin 100000) (q : Fin 128), i = ix2 r q := ⟨i 0, i 1, eq_ix2 i⟩
  unfold BiasOut.addBias
  rw [addf_apply, Cert.ReferenceIdeal.Read.val_main_v60_apply, Cert.ReferenceIdeal.Read.val_main_v59_apply]
  show a (ix2 r q) + shapeCast (⟨2, ![1, 128]⟩ : Shape) b shapeCasts_S128_S1x128 (ix2 (0 : Fin 1) q) = a (ix2 r q) + b _
  rw [shapeCast_a_1a_apply]
  congr 2
  funext d; match d with | ⟨0, _⟩ => rfl

end Cert.KernelIdeal.RefForms

end
-- ==== Proof.Boundaries.lean ====
/-
  The contents of the buffers at every boundary of the idealized kernel's run, as the reference's stages of the
  arguments. Between launch and return the run crosses nine boundaries: three stretches of host operations (the edge
  lists split, the degrees scattered and their inverse square roots selected, the edge norms gathered), the first
  feature transform, a stretch (rows gathered, scaled by the norms, scattered to their targets; the bias reshaped), the
  bias-and-clamp region, the second transform, a stretch like the first one, and the last bias region. A host stretch
  computes the same operations as the reference on what it finds; a region's result array is the function proved for
  it. So, boundary by boundary, each buffer a later step reads holds the reference's stage of the seven arguments, and
  the result array ends at the reference's result.
-/
import proofs.«133460_j56444460204637_1_alg».proof.Proof.Transform1
import proofs.«133460_j56444460204637_1_alg».proof.Proof.Transform2
import proofs.«133460_j56444460204637_1_alg».proof.Proof.BiasRelu
import proofs.«133460_j56444460204637_1_alg».proof.Proof.BiasOut
import proofs.«133460_j56444460204637_1_alg».proof.Proof.RefForms
import proofs.«133460_j56444460204637_1_alg».proof.Proof.Gen.ReferenceIdeal.Read
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Boundaries

open Cert.KernelIdeal Cert.KernelIdeal.Gen

variable (m : (ℓ : Loc nD τ sig) → Buf (Elt Ideal) ℓ) (ρ : Dev nD → PrngReg)

/-- The seven arguments as launched, at their literal types. -/
abbrev x0 (c : Dev nD) : S100000x128.Idx → EReal := m ((c : Thread nD τ).loc main_arg0)
abbrev x1 (c : Dev nD) : S2x800000.Idx → BitVec 32 := m ((c : Thread nD τ).loc main_arg1)
abbrev x2 (c : Dev nD) : S800000.Idx → EReal := m ((c : Thread nD τ).loc main_arg2)
abbrev x3 (c : Dev nD) : S128x256.Idx → EReal := m ((c : Thread nD τ).loc main_arg3)
abbrev x4 (c : Dev nD) : S256.Idx → EReal := m ((c : Thread nD τ).loc main_arg4)
abbrev x5 (c : Dev nD) : S256x128.Idx → EReal := m ((c : Thread nD τ).loc main_arg5)
abbrev x6 (c : Dev nD) : S128.Idx → EReal := m ((c : Thread nD τ).loc main_arg6)

/-- Reads a buffer after literal stretches of host operations: each operation's result at its own buffer, every
    other buffer as it was; what is left, if anything, is an equation between the same operations, closed by unfolding. -/
local macro "read_stretches" : tactic =>
  `(tactic| (simp only [hostOps0, hostOps0_1, hostOps0_2]; after_results_simp; try rfl))

/-! ## Before the first region: the edge lists, the degrees and the edge norms -/

/-- After the first stretch: where the degrees are positive. -/
theorem pos_deg (c : Dev nD) : W1 m ρ c (Proc.devRef .tc main_v8) = Cert.ReferenceIdeal.Read.val_main_v8 (F := Ideal) (x1 m c) (x2 m c) := by
  show StableHlo.after hostOps0 (W0 m ρ c) (Proc.devRef .tc main_v8) = _
  read_stretches
/-- … their inverse square roots. -/
theorem rsqrt_deg (c : Dev nD) : W1 m ρ c (Proc.devRef .tc main_v9) = Cert.ReferenceIdeal.Read.val_main_v9 (F := Ideal) (x1 m c) (x2 m c) := by
  show StableHlo.after hostOps0 (W0 m ρ c) (Proc.devRef .tc main_v9) = _
  read_stretches
/-- … and the zero the selection falls back to. -/
theorem zero_fill (c : Dev nD) : W1 m ρ c (Proc.devRef .tc main_cst_1) = Cert.ReferenceIdeal.Read.val_main_cst_1 (F := Ideal) := by
  show StableHlo.after hostOps0 (W0 m ρ c) (Proc.devRef .tc main_cst_1) = _
  read_stretches

/-- The selection stretch from any contents: the selected array is the select of the three buffers it reads (the
    operations are printed over typed references, whose transports are along a buffer's type equal to itself). -/
theorem select_of (Wp : Valuation τ sig (Elt Ideal)) :
    StableHlo.after hostOps0_1 Wp (Proc.devRef .tc main_v10)
      = select (Wp (Proc.devRef .tc main_v8)) (Wp (Proc.devRef .tc main_v9)) (broadcastInDim S100000 ![] bcast_S_S100000 (id (Wp (Proc.devRef .tc main_cst_1)))) := by
  simp only [hostOps0_1]
  after_results_simp
  rfl

/-- After the selection: the inverse square root of each positive degree, zero elsewhere. -/
theorem inv_sqrt_deg (c : Dev nD) : W2 m ρ c (Proc.devRef .tc main_v10) = Cert.ReferenceIdeal.Read.val_main_v10 (F := Ideal) (x1 m c) (x2 m c) := by
  refine (select_of (W1 m ρ c)).trans ?_
  rw [pos_deg, rsqrt_deg, zero_fill]
  unfold Cert.ReferenceIdeal.Read.val_main_v10 Cert.ReferenceIdeal.Read.val_main_call0_v1 Cert.ReferenceIdeal.Read.val_main_call0_v0
  rfl
/-- … beside the source list, the target list and the edge weights. -/
theorem src2 (c : Dev nD) : W2 m ρ c (Proc.devRef .tc main_v1) = Cert.ReferenceIdeal.Read.val_main_v1 (F := Ideal) (x1 m c) := by
  show StableHlo.after hostOps0_1 (StableHlo.after hostOps0 (W0 m ρ c)) (Proc.devRef .tc main_v1) = _
  read_stretches
theorem dst2 (c : Dev nD) : W2 m ρ c (Proc.devRef .tc main_v3) = Cert.ReferenceIdeal.Read.val_main_v3 (F := Ideal) (x1 m c) := by
  show StableHlo.after hostOps0_1 (StableHlo.after hostOps0 (W0 m ρ c)) (Proc.devRef .tc main_v3) = _
  read_stretches
theorem wts2 (c : Dev nD) : W2 m ρ c (Proc.devRef .tc main_arg2) = x2 m c := by
  show StableHlo.after hostOps0_1 (StableHlo.after hostOps0 (W0 m ρ c)) (Proc.devRef .tc main_arg2) = _
  read_stretches

/-- At the first region's entry: the edge norms, the product of the two endpoints' inverse square roots and the weight. -/
theorem norm3 (c : Dev nD) : W3 m ρ c (Proc.devRef .tc main_v26) = Cert.ReferenceIdeal.Read.val_main_v26 (F := Ideal) (x1 m c) (x2 m c) := by
  have h10 := inv_sqrt_deg m ρ c
  have h1 := src2 m ρ c
  have h3 := dst2 m ρ c
  have h2 := wts2 m ρ c
  show StableHlo.after hostOps0_2 (W2 m ρ c) (Proc.devRef .tc main_v26) = _
  revert h10 h1 h3 h2
  generalize W2 m ρ c = Wp
  intro h10 h1 h3 h2
  simp only [hostOps0_2]
  after_results_simp
  rw [h10, h1, h3, h2]
  rfl
/-- … the source and target lists, and the arguments a later step reads. -/
theorem src3 (c : Dev nD) : W3 m ρ c (Proc.devRef .tc main_v1) = Cert.ReferenceIdeal.Read.val_main_v1 (F := Ideal) (x1 m c) := by
  show StableHlo.after hostOps0_2 (StableHlo.after hostOps0_1 (StableHlo.after hostOps0 (W0 m ρ c))) (Proc.devRef .tc main_v1) = _
  read_stretches
theorem dst3 (c : Dev nD) : W3 m ρ c (Proc.devRef .tc main_v3) = Cert.ReferenceIdeal.Read.val_main_v3 (F := Ideal) (x1 m c) := by
  show StableHlo.after hostOps0_2 (StableHlo.after hostOps0_1 (StableHlo.after hostOps0 (W0 m ρ c))) (Proc.devRef .tc main_v3) = _
  read_stretches
theorem feat3 (c : Dev nD) : W3 m ρ c (Proc.devRef .tc main_arg0) = x0 m c := by
  show StableHlo.after hostOps0_2 (StableHlo.after hostOps0_1 (StableHlo.after hostOps0 (W0 m ρ c))) (Proc.devRef .tc main_arg0) = _
  read_stretches
theorem w1_3 (c : Dev nD) : W3 m ρ c (Proc.devRef .tc main_arg3) = x3 m c := by
  show StableHlo.after hostOps0_2 (StableHlo.after hostOps0_1 (StableHlo.after hostOps0 (W0 m ρ c))) (Proc.devRef .tc main_arg3) = _
  read_stretches
theorem b1_3 (c : Dev nD) : W3 m ρ c (Proc.devRef .tc main_arg4) = x4 m c := by
  show StableHlo.after hostOps0_2 (StableHlo.after hostOps0_1 (StableHlo.after hostOps0 (W0 m ρ c))) (Proc.devRef .tc main_arg4) = _
  read_stretches
theorem w2_3 (c : Dev nD) : W3 m ρ c (Proc.devRef .tc main_arg5) = x5 m c := by
  show StableHlo.after hostOps0_2 (StableHlo.after hostOps0_1 (StableHlo.after hostOps0 (W0 m ρ c))) (Proc.devRef .tc main_arg5) = _
  read_stretches
theorem b2_3 (c : Dev nD) : W3 m ρ c (Proc.devRef .tc main_arg6) = x6 m c := by
  show StableHlo.after hostOps0_2 (StableHlo.after hostOps0_1 (StableHlo.after hostOps0 (W0 m ρ c))) (Proc.devRef .tc main_arg6) = _
  read_stretches

/-! ## The first transform and the aggregation after it -/

/-- At the first region's exit its result array holds the whole product of the features and the first weights. -/
theorem h1_4 (c : Dev nD) : W4 m ρ c (Proc.devRef .tc main_v27) = Cert.ReferenceIdeal.Read.val_main_v27 (F := Ideal) (x0 m c) (x3 m c) := by
  refine (W4_arr m ρ c 2).trans ((Transform1.arr (V3 m ρ) c).trans ?_)
  show Cert.ReferenceIdeal.Read.val_main_v27 (F := Ideal) (W3 m ρ c (Proc.devRef .tc main_arg0)) (W3 m ρ c (Proc.devRef .tc main_arg3)) = _
  rw [feat3, w1_3]
/-- The region writes its result array only: every other buffer is as it entered. -/
theorem src4 (c : Dev nD) : W4 m ρ c (Proc.devRef .tc main_v1) = Cert.ReferenceIdeal.Read.val_main_v1 (F := Ideal) (x1 m c) :=
  (W4_of_ne m ρ c main_v1 (by decide)).trans (src3 m ρ c)
theorem dst4 (c : Dev nD) : W4 m ρ c (Proc.devRef .tc main_v3) = Cert.ReferenceIdeal.Read.val_main_v3 (F := Ideal) (x1 m c) :=
  (W4_of_ne m ρ c main_v3 (by decide)).trans (dst3 m ρ c)
theorem norm4 (c : Dev nD) : W4 m ρ c (Proc.devRef .tc main_v26) = Cert.ReferenceIdeal.Read.val_main_v26 (F := Ideal) (x1 m c) (x2 m c) :=
  (W4_of_ne m ρ c main_v26 (by decide)).trans (norm3 m ρ c)
theorem b1_4 (c : Dev nD) : W4 m ρ c (Proc.devRef .tc main_arg4) = x4 m c :=
  (W4_of_ne m ρ c main_arg4 (by decide)).trans (b1_3 m ρ c)
theorem w2_4 (c : Dev nD) : W4 m ρ c (Proc.devRef .tc main_arg5) = x5 m c :=
  (W4_of_ne m ρ c main_arg5 (by decide)).trans (w2_3 m ρ c)
theorem b2_4 (c : Dev nD) : W4 m ρ c (Proc.devRef .tc main_arg6) = x6 m c :=
  (W4_of_ne m ρ c main_arg6 (by decide)).trans (b2_3 m ρ c)

/-- At the second region's entry: the first layer's aggregated features — the product's rows gathered at the sources,
    scaled by the norms and added up at the targets. -/
theorem agg1_5 (c : Dev nD) : W5 m ρ c (Proc.devRef .tc main_v40) = Cert.ReferenceIdeal.Read.val_main_v40 (F := Ideal) (x0 m c) (x1 m c) (x2 m c) (x3 m c) := by
  show StableHlo.after hostOps1 (W4 m ρ c) (Proc.devRef .tc main_v40) = _
  simp only [hostOps1]
  after_results_simp
  rw [h1_4, src4, dst4, norm4]
  rfl
/-- … and the first bias as one row. -/
theorem b1row_5 (c : Dev nD) : W5 m ρ c (Proc.devRef .tc main_v41) = shapeCast S1x256 (x4 m c) shapeCasts_S256_S1x256 := by
  show StableHlo.after hostOps1 (W4 m ρ c) (Proc.devRef .tc main_v41) = _
  simp only [hostOps1]
  after_results_simp
  rw [b1_4]
  rfl
/-- The stretch writes neither the lists, nor the norms, nor an argument. -/
theorem src5 (c : Dev nD) : W5 m ρ c (Proc.devRef .tc main_v1) = Cert.ReferenceIdeal.Read.val_main_v1 (F := Ideal) (x1 m c) := by
  show StableHlo.after hostOps1 (W4 m ρ c) (Proc.devRef .tc main_v1) = _
  simp only [hostOps1]
  after_results_simp
  exact src4 m ρ c
theorem dst5 (c : Dev nD) : W5 m ρ c (Proc.devRef .tc main_v3) = Cert.ReferenceIdeal.Read.val_main_v3 (F := Ideal) (x1 m c) := by
  show StableHlo.after hostOps1 (W4 m ρ c) (Proc.devRef .tc main_v3) = _
  simp only [hostOps1]
  after_results_simp
  exact dst4 m ρ c
theorem norm5 (c : Dev nD) : W5 m ρ c (Proc.devRef .tc main_v26) = Cert.ReferenceIdeal.Read.val_main_v26 (F := Ideal) (x1 m c) (x2 m c) := by
  show StableHlo.after hostOps1 (W4 m ρ c) (Proc.devRef .tc main_v26) = _
  simp only [hostOps1]
  after_results_simp
  exact norm4 m ρ c
theorem w2_5 (c : Dev nD) : W5 m ρ c (Proc.devRef .tc main_arg5) = x5 m c := by
  show StableHlo.after hostOps1 (W4 m ρ c) (Proc.devRef .tc main_arg5) = _
  simp only [hostOps1]
  after_results_simp
  exact w2_4 m ρ c
theorem b2_5 (c : Dev nD) : W5 m ρ c (Proc.devRef .tc main_arg6) = x6 m c := by
  show StableHlo.after hostOps1 (W4 m ρ c) (Proc.devRef .tc main_arg6) = _
  simp only [hostOps1]
  after_results_simp
  exact b2_4 m ρ c

/-! ## The bias-and-clamp region and the second transform -/

/-- At the second region's exit its result array holds the hidden features: the aggregate plus the bias, clamped below
    at zero. -/
theorem hid6 (c : Dev nD) : W6 m ρ c (Proc.devRef .tc main_v42) = Cert.ReferenceIdeal.Read.val_main_v44 (F := Ideal) (x0 m c) (x1 m c) (x2 m c) (x3 m c) (x4 m c) := by
  refine (W6_arr m ρ c 2).trans ((BiasRelu.arr (V5 m ρ) c).trans ?_)
  show BiasRelu.biasRelu (W5 m ρ c (Proc.devRef .tc main_v40)) (W5 m ρ c (Proc.devRef .tc main_v41)) = _
  rw [agg1_5, b1row_5, RefForms.biasRelu_eq]
  rfl
theorem w2_6 (c : Dev nD) : W6 m ρ c (Proc.devRef .tc main_arg5) = x5 m c :=
  (W6_of_ne m ρ c main_arg5 (by decide)).trans (w2_5 m ρ c)

/-- At the third region's exit its result array holds the whole product of the hidden features and the second weights. -/
theorem h2_7 (c : Dev nD) : W7 m ρ c (Proc.devRef .tc main_v43) = Cert.ReferenceIdeal.Read.val_main_v45 (F := Ideal) (x0 m c) (x1 m c) (x2 m c) (x3 m c) (x4 m c) (x5 m c) := by
  refine (W7_arr m ρ c 2).trans ((Transform2.arr (V6 m ρ) c).trans ?_)
  show Transform2.prod (W6 m ρ c (Proc.devRef .tc main_v42)) (W6 m ρ c (Proc.devRef .tc main_arg5)) = _
  rw [hid6, w2_6]
  rfl
/-- Neither region writes the lists, the norms or the last bias. -/
theorem src7 (c : Dev nD) : W7 m ρ c (Proc.devRef .tc main_v1) = Cert.ReferenceIdeal.Read.val_main_v1 (F := Ideal) (x1 m c) :=
  (W7_of_ne m ρ c main_v1 (by decide)).trans ((W6_of_ne m ρ c main_v1 (by decide)).trans (src5 m ρ c))
theorem dst7 (c : Dev nD) : W7 m ρ c (Proc.devRef .tc main_v3) = Cert.ReferenceIdeal.Read.val_main_v3 (F := Ideal) (x1 m c) :=
  (W7_of_ne m ρ c main_v3 (by decide)).trans ((W6_of_ne m ρ c main_v3 (by decide)).trans (dst5 m ρ c))
theorem norm7 (c : Dev nD) : W7 m ρ c (Proc.devRef .tc main_v26) = Cert.ReferenceIdeal.Read.val_main_v26 (F := Ideal) (x1 m c) (x2 m c) :=
  (W7_of_ne m ρ c main_v26 (by decide)).trans ((W6_of_ne m ρ c main_v26 (by decide)).trans (norm5 m ρ c))
theorem b2_7 (c : Dev nD) : W7 m ρ c (Proc.devRef .tc main_arg6) = x6 m c :=
  (W7_of_ne m ρ c main_arg6 (by decide)).trans ((W6_of_ne m ρ c main_arg6 (by decide)).trans (b2_5 m ρ c))

/-! ## The second aggregation and the last bias region -/

/-- At the last region's entry: the second layer's aggregated features. -/
theorem agg2_8 (c : Dev nD) : W8 m ρ c (Proc.devRef .tc main_v56) = Cert.ReferenceIdeal.Read.val_main_v58 (F := Ideal) (x0 m c) (x1 m c) (x2 m c) (x3 m c) (x4 m c) (x5 m c) := by
  show StableHlo.after hostOps3 (W7 m ρ c) (Proc.devRef .tc main_v56) = _
  simp only [hostOps3]
  after_results_simp
  rw [h2_7, src7, dst7, norm7]
  rfl
/-- … and the second bias as one row. -/
theorem b2row_8 (c : Dev nD) : W8 m ρ c (Proc.devRef .tc main_v57) = shapeCast S1x128 (x6 m c) shapeCasts_S128_S1x128 := by
  show StableHlo.after hostOps3 (W7 m ρ c) (Proc.devRef .tc main_v57) = _
  simp only [hostOps3]
  after_results_simp
  rw [b2_7]
  rfl

/-- AT THE RETURN the result array holds the reference's result of the seven arguments. -/
theorem out9 (c : Dev nD) : W9 m ρ c (Proc.devRef .tc main_v58) = Cert.ReferenceIdeal.Read.val_main_v61 (F := Ideal) (x0 m c) (x1 m c) (x2 m c) (x3 m c) (x4 m c) (x5 m c) (x6 m c) := by
  refine (W9_arr m ρ c 2).trans ((BiasOut.arr (V8 m ρ) c).trans ?_)
  show BiasOut.addBias (W8 m ρ c (Proc.devRef .tc main_v56)) (W8 m ρ c (Proc.devRef .tc main_v57)) = _
  rw [agg2_8, b2row_8, RefForms.addBias_eq]
  rfl

end Cert.KernelIdeal.Boundaries

end
-- ==== Proof.lean ====
/-
  A two-layer graph convolution: each layer transforms the node features by a weight matrix, gathers the transformed
  rows at the edges' sources, scales them by the symmetric edge norms d^(-1/2)[src] · w · d^(-1/2)[dst], adds them up at
  the edges' targets and adds a bias; the first layer's result is clamped below at zero. The kernel runs the two
  transforms and the two bias stages as four pipelined regions over blocks of 5000 rows and leaves the irregular
  gather and scatter to host operations between them; the reference is the same chain written as host operations
  only. On extended reals narrowing a float is the identity and a block product into zero is the plain sum of
  products, so every region's result array is the reference's stage of the same inputs, and the host operations in
  between are the reference's own: the two programs end with one result, index by index.

  The three frames: the two kernels' are generated; the reference's is its generated run with the result dropped.
  Nothing was rewritten by the idealization, so there is nothing to preserve. For the value claim the idealized
  kernel's run is stated with its result array named (KernelRun), the array is walked back through the nine boundaries
  of the run to the reference's stages of the arguments (Boundaries), and the reference's generated run ends at the same
  stage of arguments that agree.
-/
import proofs.«133460_j56444460204637_1_alg».proof.Defs
import proofs.«133460_j56444460204637_1_alg».proof.Proof.Gen.Kernel
import proofs.«133460_j56444460204637_1_alg».proof.Proof.Gen.Kernel.Frame
import proofs.«133460_j56444460204637_1_alg».proof.Proof.Gen.KernelIdeal
import proofs.«133460_j56444460204637_1_alg».proof.Proof.Gen.KernelIdeal.Frame
import proofs.«133460_j56444460204637_1_alg».proof.Proof.Gen.ReferenceIdeal
import proofs.«133460_j56444460204637_1_alg».proof.Proof.Gen.ReferenceIdeal.Run
import proofs.«133460_j56444460204637_1_alg».proof.Proof.Gen.ReferenceIdeal.Read
import proofs.«133460_j56444460204637_1_alg».proof.Proof.Gen.Pre_finite_inputs
import proofs.«133460_j56444460204637_1_alg».proof.Proof.KernelRun
import proofs.«133460_j56444460204637_1_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the reference's last stage of the arguments: the kernel's result array by the walk through its
    boundaries, the reference's by its run; the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v58),
    Cert.KernelIdeal.Gen.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v61_eq, h0, h1, h2, h3, h4, h5, h6]
  exact (Cert.KernelIdeal.Boundaries.out9 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
